-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x256 : Shape := ⟨2, ![128, 256]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : IVec S1600000 32) (main_arg2 : IVec S1600000 32) (main_arg3 : FVec F S128x256 .f32) (main_arg4 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S1600000 : Shape := ⟨1, ![1600000]⟩
abbrev S128x256 : Shape := ⟨2, ![128, 256]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S128x128 : Shape := ⟨2, ![128, 128]⟩
abbrev S1x128 : Shape := ⟨2, ![1, 128]⟩
abbrev S2000x128 : Shape := ⟨2, ![2000, 128]⟩
abbrev S2000x1 : Shape := ⟨2, ![2000, 1]⟩

abbrev nBuf : Space → Nat
  | .hbm => 31
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x256, .f32⟩
  | .hbm, ⟨4, _⟩ => ⟨S128, .f32⟩
  | .hbm, ⟨5, _⟩ => ⟨S_, .i32⟩
  | .hbm, ⟨6, _⟩ => ⟨S1600000, .i32⟩
  | .hbm, ⟨7, _⟩ => ⟨S1600000, .i1⟩
  | .hbm, ⟨8, _⟩ => ⟨S_, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S1600000x1, .i32⟩
  | .hbm, ⟨13, _⟩ => ⟨S1600000x128, .f32⟩
  | .hbm, ⟨14, _⟩ => ⟨S_, .f32⟩
  | .hbm, ⟨15, _⟩ => ⟨S100000x128, .f32⟩
  | .hbm, ⟨16, _⟩ => ⟨S1600000x1, .i32⟩
  | .hbm, ⟨17, _⟩ => ⟨S100000x128, .f32⟩
  | .hbm, ⟨18, _⟩ => ⟨S_, .f32⟩
  | .hbm, ⟨19, _⟩ => ⟨S1600000, .f32⟩
  | .hbm, ⟨20, _⟩ => ⟨S_, .f32⟩
  | .hbm, ⟨21, _⟩ => ⟨S100000, .f32⟩
  | .hbm, ⟨22, _⟩ => ⟨S1600000x1, .i32⟩
  | .hbm, ⟨23, _⟩ => ⟨S100000, .f32⟩
  | .hbm, ⟨24, _⟩ => ⟨S100000x1, .f32⟩
  | .hbm, ⟨25, _⟩ => ⟨S128x128, .f32⟩
  | .hbm, ⟨26, _⟩ => ⟨S128x128, .f32⟩
  | .hbm, ⟨27, _⟩ => ⟨S128x128, .f32⟩
  | .hbm, ⟨28, _⟩ => ⟨S128x128, .f32⟩
  | .hbm, ⟨29, _⟩ => ⟨S1x128, .f32⟩
  | .hbm, ⟨30, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x1, .f32⟩
  | .local _ .vmem, ⟨5, _⟩ => ⟨S2000x1, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S2000x128, .f32⟩
  | .local _ .vmem, ⟨10, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  slices_S128x256_S128x128_0_0 : S128x256.Slices ![0, 0] S128x128
  transposes_S128x128_S128x128_1_0 : S128x128.Transposes [1, 0] S128x128
  slices_S128x256_S128x128_0_128 : S128x256.Slices ![0, 128] S128x128
  bcast_S128_S1x128_1 : S128.BroadcastsInDim S1x128 (![1] : Fin 1 → Fin S1x128.rank)
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S2000x1_S2000x128 : S2000x1.Broadcasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S100000x1.size a
  hwx0_2 : ∀ i : grid0.Coords, EltTy.bits .f32 = 32 ∨ (Rect.block (s := S100000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S100000x128.size a
  hwx0_6 : ∀ i : grid0.Coords, EltTy.bits .f32 = 32 ∨ (Rect.block (s := S100000x128) S2000x128.size (cc0_transform_6 i) (hinb0_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v9) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x256 : Shape := ⟨2, ![128, 256]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S100000x256 : Shape := ⟨2, ![100000, 256]⟩
abbrev S256x128 : Shape := ⟨2, ![256, 128]⟩
abbrev S1x128 : Shape := ⟨2, ![1, 128]⟩

abbrev nBuf : Space → Nat
  | .hbm => 46
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x256, .f32⟩
  | .hbm, ⟨4, _⟩ => ⟨S128, .f32⟩
  | .hbm, ⟨5, _⟩ => ⟨S_, .i32⟩
  | .hbm, ⟨6, _⟩ => ⟨S1600000, .i32⟩
  | .hbm, ⟨7, _⟩ => ⟨S1600000, .i1⟩
  | .hbm, ⟨8, _⟩ => ⟨S_, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S1600000x1, .i32⟩
  | .hbm, ⟨13, _⟩ => ⟨S1600000x128, .f32⟩
  | .hbm, ⟨14, _⟩ => ⟨S_, .f32⟩
  | .hbm, ⟨15, _⟩ => ⟨S100000x128, .f32⟩
  | .hbm, ⟨16, _⟩ => ⟨S1600000x1, .i32⟩
  | .hbm, ⟨17, _⟩ => ⟨S100000x128, .f32⟩
  | .hbm, ⟨18, _⟩ => ⟨S_, .f32⟩
  | .hbm, ⟨19, _⟩ => ⟨S1600000, .f32⟩
  | .hbm, ⟨20, _⟩ => ⟨S_, .f32⟩
  | .hbm, ⟨21, _⟩ => ⟨S100000, .f32⟩
  | .hbm, ⟨22, _⟩ => ⟨S1600000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S100000x128, .f32⟩
  | .hbm, ⟨39, _⟩ => ⟨S100000x128, .f32⟩
  | .hbm, ⟨40, _⟩ => ⟨S100000x256, .f32⟩
  | .hbm, ⟨41, _⟩ => ⟨S256x128, .f32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_v19 : Ref sig .tc := ⟨.hbm, 32, rfl⟩
abbrev main_cst_6 : Ref sig .tc := ⟨.hbm, 33, rfl⟩
abbrev main_call0_v0 : Ref sig .tc := ⟨.hbm, 34, rfl⟩
abbrev main_call0_v1 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  concatenates_S100000x128_S100000x128_S100000x256_d1 : Shape.Concatenates [S100000x128, S100000x128] S100000x256 1
  transposes_S128x256_S256x128_1_0 : S128x256.Transposes [1, 0] S256x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x256_S256x128_S100000x128_1_0_0_1_n_n_wf : DotDims.WF S100000x256 S256x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf

class Facts : Prop extends Facts₀ where

variable [Facts]
-- ==== Proof.LibPlainProduct.lean ====
/-
  A matrix product with one contracted axis, read at an entry over the extended reals: the kernel's product into a
  zero accumulator and the host's product are both the plain sum, over the contracted coordinate, of the left
  operand's row entry times the right operand's column entry — whatever formats the operands carry.
-/
import Idealize.ShloMosaic.Lib.ValueIdx
import Idealize.ShloMosaic.PureOps.Ideal.Laws

namespace Cert.PlainProduct

open Idealize.ShloMosaic Idealize.ShloMosaic.ValueIdx

variable {M K N : ℕ}

/-- The left operand is read at the output's row … -/
theorem lhs_row (j : (⟨2, ![M, N]⟩ : Shape).Idx) (q : (DotDims.plain M K N).contr.Idx) :
    ((DotDims.plain M K N).lhsIdx j q 0).val = (j 0).val := rfl
/-- … and the contracted coordinate; -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- the right operand at the contracted coordinate … -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and the output's column. -/
theorem rhs_col (j : (⟨2, ![M, N]⟩ : Shape).Idx) (q : (DotDims.plain M K N).contr.Idx) :
    ((DotDims.plain M K N).rhsIdx j q 1).val = (j 1).val := rfl

/-- The sum over the contraction's index set is the sum over the K values of its one coordinate. -/
theorem sum_contr {φ₁ φ₂ : FTy} (lhs : FVec Ideal ⟨2, ![M, K]⟩ φ₁) (rhs : FVec Ideal ⟨2, ![K, N]⟩ φ₂) (p : Fin M) (q : Fin N) :
    (∑ k : (DotDims.plain M K N).contr.Idx,
        lhs ((DotDims.plain M K N).lhsIdx (ix2 p q) k) * rhs ((DotDims.plain M K N).rhsIdx (ix2 p q) k))
      = ∑ x : Fin K, lhs (ix2 p x) * rhs (ix2 x q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

/-- The kernel's product into the zero accumulator, at (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    matmul (F := Ideal) (DotDims.plain M K N) prec lhs rhs (constant (F := Ideal) ⟨2, ![M, N]⟩ .f32 0x00000000#32) (ix2 p q)
      = ∑ x : Fin K, lhs (ix2 p x) * rhs (ix2 x q) :=
  (Ideal.matmul_constant_zero_apply (DotDims.plain M K N) prec lhs rhs (ix2 p q)).trans (sum_contr lhs rhs p q)

/-- The host's product, at (p, q). -/
theorem dotGeneral_apply {φ₁ φ₂ : FTy} (prec : Option ContractPrecision)
    (lhs : FVec Ideal ⟨2, ![M, K]⟩ φ₁) (rhs : FVec Ideal ⟨2, ![K, N]⟩ φ₂) (p : Fin M) (q : Fin N) :
    Host.dotGeneral (F := Ideal) (DotDims.plain M K N) prec lhs rhs (ix2 p q)
      = ∑ x : Fin K, lhs (ix2 p x) * rhs (ix2 x q) := by
  simp only [Host.dotGeneral]
  exact (Ideal.dotGeneral_apply (DotDims.plain M K N) prec _ lhs rhs (ix2 p q)).trans (sum_contr lhs rhs p q)

/-- The product of an [M, K] array by a [K, N] array as one array: entry (p, q) is the sum over x of lhs (p, x) · rhs (x, q). -/
noncomputable def prod {φ₁ φ₂ : FTy} (lhs : FVec Ideal ⟨2, ![M, K]⟩ φ₁) (rhs : FVec Ideal ⟨2, ![K, N]⟩ φ₂) :
    FVec Ideal ⟨2, ![M, N]⟩ .f32 :=
  fun i => ∑ x : Fin K, lhs (ix2 (i 0) x) * rhs (ix2 x (i 1))

theorem prod_apply {φ₁ φ₂ : FTy} (lhs : FVec Ideal ⟨2, ![M, K]⟩ φ₁) (rhs : FVec Ideal ⟨2, ![K, N]⟩ φ₂) (p : Fin M) (q : Fin N) :
    prod lhs rhs (ix2 p q) = ∑ x : Fin K, lhs (ix2 p x) * rhs (ix2 x q) := rfl

/-- The host's product is that array. -/
theorem dotGeneral_eq_prod {φ₁ φ₂ : FTy} (prec : Option ContractPrecision)
    (lhs : FVec Ideal ⟨2, ![M, K]⟩ φ₁) (rhs : FVec Ideal ⟨2, ![K, N]⟩ φ₂) :
    Host.dotGeneral (F := Ideal) (DotDims.plain M K N) prec lhs rhs = prod lhs rhs := by
  funext i
  obtain ⟨p, q, rfl⟩ : ∃ (p : Fin M) (q : Fin N), i = ix2 p q := ⟨i 0, i 1, eq_ix2 i⟩
  exact dotGeneral_apply prec lhs rhs p q

end Cert.PlainProduct
-- ==== Proof.LibTile.lean ====
/-
  Operations on a rank-2 tile read at an index given by coordinates: the two column forms of a
  keep-dimensions reduction (a vector as a column, a column spread along the rows), a sum along the rows
  or the columns as a sum over one coordinate, the column of row norms, and a matrix product with one
  contracted axis as a sum over that axis.
-/
import Idealize.ShloMosaic.Lib.ValueIdx
import Idealize.ShloMosaic.Lib.ValueLayout
import Idealize.ShloMosaic.Lib.Pipeline.Value
import Idealize.ShloMosaic.PureOps.Ideal.Laws

namespace Cert.Tile

open Idealize.ShloMosaic Idealize.ShloMosaic.ValueIdx

variable {α : Type}

/-! ## Layout -/

/-- An [a] array cast to [a, 1] reads, at (i, u), the operand at i. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column spread to [a, b] reads, at (p, c), the column at p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Sums along one axis -/

/-- The entries of each row of an [a, b] tile summed: at p, the sum over the b columns. -/
theorem rowSum_apply {a b : ℕ} (src : FVec Ideal ⟨2, ![a, b]⟩ .f32)
    (h : Shape.Reduces ⟨2, ![a, b]⟩ [1] ⟨1, ![a]⟩) (hφ : FKind.Formats .f32)
    (hacc : (0x00000000#32 : BitVec 32) = 0x00000000#32) (p : Fin a) :
    multiReduction (F := Ideal) .add [1] ⟨1, ![a]⟩ src 0x00000000#32 h hφ hacc (ix1 p)
      = ∑ k : Fin b, src (ix2 p k) := by
  refine (Ideal.multiReduction_add_single src 0x00000000#32 h hφ hacc (ix1 p)).trans ?_
  exact Finset.sum_congr rfl fun k _ => congrArg src (funext fun ax => Fin.ext (by
    match ax with
    | ⟨0, _⟩ => rfl
    | ⟨1, _⟩ => rfl))

/-- The entries of each column of an [a, b] tile summed: at q, the sum over the a rows. -/
theorem colSum_apply {a b : ℕ} (src : FVec Ideal ⟨2, ![a, b]⟩ .f32)
    (h : Shape.Reduces ⟨2, ![a, b]⟩ [0] ⟨1, ![b]⟩) (hφ : FKind.Formats .f32)
    (hacc : (0x00000000#32 : BitVec 32) = 0x00000000#32) (q : Fin b) :
    multiReduction (F := Ideal) .add [0] ⟨1, ![b]⟩ src 0x00000000#32 h hφ hacc (ix1 q)
      = ∑ k : Fin a, src (ix2 k q) := by
  refine (Ideal.multiReduction_add_single src 0x00000000#32 h hφ hacc (ix1 q)).trans ?_
  exact Finset.sum_congr rfl fun k _ => congrArg src (funext fun ax => Fin.ext (by
    match ax with
    | ⟨0, _⟩ => rfl
    | ⟨1, _⟩ => rfl))

/-- The row sums kept as a column: at (p, u), the sum over the b columns of row p. -/
theorem rowSumCol_apply {a b : ℕ} (src : FVec Ideal ⟨2, ![a, b]⟩ .f32)
    (h : Shape.Reduces ⟨2, ![a, b]⟩ [1] ⟨1, ![a]⟩) (hφ : FKind.Formats .f32)
    (hacc : (0x00000000#32 : BitVec 32) = 0x00000000#32)
    (hc : (⟨1, ![a]⟩ : Shape).ShapeCasts ⟨2, ![a, 1]⟩) (p : Fin a) (u : Fin 1) :
    shapeCast ⟨2, ![a, 1]⟩ (multiReduction (F := Ideal) .add [1] ⟨1, ![a]⟩ src 0x00000000#32 h hφ hacc) hc (ix2 p u)
      = ∑ k : Fin b, src (ix2 p k) :=
  (shapeCast_a_a1_apply _ hc p u).trans (rowSum_apply src h hφ hacc p)

/-- A square root read at an index. -/
theorem sqrt_apply {s : Shape} {φ : FTy} (v : FVec Ideal s φ) (i : s.Idx) : sqrt v i = Ideal.sqrt (v i) := rfl

/-- The column of Euclidean row norms spread along rows of length c: at (p, x), the square root of
    the sum of the squares of row p. -/
theorem normCol_apply {a b c : ℕ} (X : FVec Ideal ⟨2, ![a, b]⟩ .f32)
    (h : Shape.Reduces ⟨2, ![a, b]⟩ [1] ⟨1, ![a]⟩) (hφ : FKind.Formats .f32)
    (hacc : (0x00000000#32 : BitVec 32) = 0x00000000#32)
    (hc : (⟨1, ![a]⟩ : Shape).ShapeCasts ⟨2, ![a, 1]⟩)
    (hb : (⟨2, ![a, 1]⟩ : Shape).Broadcasts ⟨2, ![a, c]⟩) (p : Fin a) (x : Fin c) :
    broadcastTo ⟨2, ![a, c]⟩
        (sqrt (shapeCast ⟨2, ![a, 1]⟩ (multiReduction (F := Ideal) .add [1] ⟨1, ![a]⟩ (mulf X X) 0x00000000#32 h hφ hacc) hc))
        hb (ix2 p x)
      = Ideal.sqrt (∑ k : Fin b, X (ix2 p k) * X (ix2 p k)) :=
  (broadcastTo_a1_ab_apply _ hb p x).trans
    (congrArg Ideal.sqrt (rowSumCol_apply (mulf X X) h hφ hacc hc p 0))

/-! ## A matrix product with one contracted axis -/

theorem lhs_plain_0 {M K N : ℕ} (j : (⟨2, ![M, N]⟩ : Shape).Idx) (q : (DotDims.plain M K N).contr.Idx) :
    ((DotDims.plain M K N).lhsIdx j q 0).val = (j 0).val := rfl
theorem lhs_plain_1 {M K N : ℕ} (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
theorem rhs_plain_0 {M K N : ℕ} (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
theorem rhs_plain_1 {M K N : ℕ} (j : (⟨2, ![M, N]⟩ : Shape).Idx) (q : (DotDims.plain M K N).contr.Idx) :
    ((DotDims.plain M K N).rhsIdx j q 1).val = (j 1).val := rfl

/-- An [M, K] by [K, N] product into the zero accumulator reads, at (p, q), the sum over the K
    contracted coordinates of the left operand at (p, x) times the right at (x, q). -/
theorem matmul_plain_apply {M K N : ℕ} (prec : Option ContractPrecision)
    (lhs : FVec Ideal ⟨2, ![M, K]⟩ .f32) (rhs : FVec Ideal ⟨2, ![K, N]⟩ .f32) (p : Fin M) (q : Fin N) :
    matmul (F := Ideal) (DotDims.plain M K N) prec lhs rhs (constant (F := Ideal) ⟨2, ![M, N]⟩ .f32 0x00000000#32) (ix2 p q)
      = ∑ x : Fin K, lhs (ix2 p x) * rhs (ix2 x q) := by
  refine (Ideal.matmul_constant_zero_apply (DotDims.plain M K N) prec lhs rhs (ix2 p q)).trans ?_
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_plain_0 _ _
      | ⟨1, _⟩ => exact (lhs_plain_1 _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_plain_0 _ _).trans hk
      | ⟨1, _⟩ => exact rhs_plain_1 _ _)
  rw [el, er]

/-! ## The patterns of one layer -/

/-- A tile with each row divided by its Euclidean norm: at (p, x), the entry over the square root of
    the sum of the squares of row p. -/
theorem normalize_apply {a b : ℕ} (X : FVec Ideal ⟨2, ![a, b]⟩ .f32)
    (h : Shape.Reduces ⟨2, ![a, b]⟩ [1] ⟨1, ![a]⟩) (hφ : FKind.Formats .f32)
    (hacc : (0x00000000#32 : BitVec 32) = 0x00000000#32)
    (hc : (⟨1, ![a]⟩ : Shape).ShapeCasts ⟨2, ![a, 1]⟩)
    (hb : (⟨2, ![a, 1]⟩ : Shape).Broadcasts ⟨2, ![a, b]⟩) (p : Fin a) (x : Fin b) :
    divf X (broadcastTo ⟨2, ![a, b]⟩
        (sqrt (shapeCast ⟨2, ![a, 1]⟩ (multiReduction (F := Ideal) .add [1] ⟨1, ![a]⟩ (mulf X X) 0x00000000#32 h hφ hacc) hc))
        hb) (ix2 p x)
      = Ideal.div (X (ix2 p x)) (Ideal.sqrt (∑ k : Fin b, X (ix2 p k) * X (ix2 p k))) :=
  congrArg (Ideal.div (X (ix2 p x))) (normCol_apply X h hφ hacc hc hb p x)

/-- A dense layer with a rectifier and a multiplicative mask row, the weights given transposed:
    at (p, q), max (Σₓ X p x · WT x q + b q) 0 · mask q. -/
theorem dense_apply {M K N : ℕ} (prec : Option ContractPrecision)
    (X : FVec Ideal ⟨2, ![M, K]⟩ .f32) (WT : FVec Ideal ⟨2, ![K, N]⟩ .f32) (b mk : FVec Ideal ⟨2, ![1, N]⟩ .f32)
    (hw : (⟨2, ![K, N]⟩ : Shape).ShapeCasts ⟨2, ![K, N]⟩)
    (hb hm : (⟨2, ![1, N]⟩ : Shape).ShapeCasts ⟨2, ![1, N]⟩)
    (hbb hmb : (⟨2, ![1, N]⟩ : Shape).Broadcasts ⟨2, ![M, N]⟩) (p : Fin M) (q : Fin N) :
    mulf (maximumf
          (addf (matmul (F := Ideal) (DotDims.plain M K N) prec X (shapeCast ⟨2, ![K, N]⟩ WT hw)
                  (constant (F := Ideal) ⟨2, ![M, N]⟩ .f32 0x00000000#32))
                (broadcastTo ⟨2, ![M, N]⟩ (shapeCast ⟨2, ![1, N]⟩ b hb) hbb))
          (broadcast ⟨2, ![M, N]⟩ (Scalar.ofBits (F := Ideal) .f32 0x00000000#32)))
        (broadcastTo ⟨2, ![M, N]⟩ (shapeCast ⟨2, ![1, N]⟩ mk hm) hmb) (ix2 p q)
      = max ((∑ x : Fin K, X (ix2 p x) * WT (ix2 x q)) + b (ix2 (0 : Fin 1) q)) 0 * mk (ix2 (0 : Fin 1) q) :=
  congrArg₂ (· * ·)
    (congrArg₂ max
      (congrArg₂ (· + ·)
        ((matmul_plain_apply prec X _ p q).trans
          (Finset.sum_congr rfl fun x _ => congrArg (X (ix2 p x) * ·) (congrFun (shapeCast_self WT hw) (ix2 x q))))
        ((broadcastTo_1b_ab_apply _ hbb p q).trans (congrFun (shapeCast_self b hb) (ix2 (0 : Fin 1) q))))
      Ideal.ofBits_zero_f32)
    ((broadcastTo_1b_ab_apply _ hmb p q).trans (congrFun (shapeCast_self mk hm) (ix2 (0 : Fin 1) q)))

/-- The same without a mask: at (p, q), max (Σₓ X p x · WT x q + b q) 0. -/
theorem denseOut_apply {M K N : ℕ} (prec : Option ContractPrecision)
    (X : FVec Ideal ⟨2, ![M, K]⟩ .f32) (WT : FVec Ideal ⟨2, ![K, N]⟩ .f32) (b : FVec Ideal ⟨2, ![1, N]⟩ .f32)
    (hw : (⟨2, ![K, N]⟩ : Shape).ShapeCasts ⟨2, ![K, N]⟩)
    (hb : (⟨2, ![1, N]⟩ : Shape).ShapeCasts ⟨2, ![1, N]⟩)
    (hbb : (⟨2, ![1, N]⟩ : Shape).Broadcasts ⟨2, ![M, N]⟩) (p : Fin M) (q : Fin N) :
    maximumf
          (addf (matmul (F := Ideal) (DotDims.plain M K N) prec X (shapeCast ⟨2, ![K, N]⟩ WT hw)
                  (constant (F := Ideal) ⟨2, ![M, N]⟩ .f32 0x00000000#32))
                (broadcastTo ⟨2, ![M, N]⟩ (shapeCast ⟨2, ![1, N]⟩ b hb) hbb))
          (broadcast ⟨2, ![M, N]⟩ (Scalar.ofBits (F := Ideal) .f32 0x00000000#32)) (ix2 p q)
      = max ((∑ x : Fin K, X (ix2 p x) * WT (ix2 x q)) + b (ix2 (0 : Fin 1) q)) 0 :=
  congrArg₂ max
    (congrArg₂ (· + ·)
      ((matmul_plain_apply prec X _ p q).trans
        (Finset.sum_congr rfl fun x _ => congrArg (X (ix2 p x) * ·) (congrFun (shapeCast_self WT hw) (ix2 x q))))
      ((broadcastTo_1b_ab_apply _ hbb p q).trans (congrFun (shapeCast_self b hb) (ix2 (0 : Fin 1) q))))
    Ideal.ofBits_zero_f32

/-- The sum of the squares of every entry of a tile, kept as a [1, 1] value. -/
theorem totalSq_apply {a b : ℕ} (Y : FVec Ideal ⟨2, ![a, b]⟩ .f32)
    (h1 : Shape.Reduces ⟨2, ![a, b]⟩ [1] ⟨1, ![a]⟩) (hφ : FKind.Formats .f32)
    (hacc : (0x00000000#32 : BitVec 32) = 0x00000000#32)
    (hc : (⟨1, ![a]⟩ : Shape).ShapeCasts ⟨2, ![a, 1]⟩)
    (h0 : Shape.Reduces ⟨2, ![a, 1]⟩ [0] ⟨1, ![1]⟩) (hφ' : FKind.Formats .f32)
    (hacc' : (0x00000000#32 : BitVec 32) = 0x00000000#32)
    (hc1 : (⟨1, ![1]⟩ : Shape).ShapeCasts ⟨2, ![1, 1]⟩) (u w : Fin 1) :
    shapeCast ⟨2, ![1, 1]⟩
        (multiReduction (F := Ideal) .add [0] ⟨1, ![1]⟩
          (shapeCast ⟨2, ![a, 1]⟩ (multiReduction (F := Ideal) .add [1] ⟨1, ![a]⟩ (mulf Y Y) 0x00000000#32 h1 hφ hacc) hc)
          0x00000000#32 h0 hφ' hacc') hc1 (ix2 u w)
      = ∑ k : Fin a, ∑ j : Fin b, Y (ix2 k j) * Y (ix2 k j) :=
  (shapeCast_a_1a_apply _ hc1 u w).trans
    ((colSum_apply _ h0 hφ' hacc' w).trans
      (Finset.sum_congr rfl fun k _ => rowSumCol_apply (mulf Y Y) h1 hφ hacc hc k w))

/-- A row accumulator plus, at each column q, the sum over the rows k of V k q times the sum of row k
    of U. -/
theorem sdAcc_apply {a b c : ℕ} (U : FVec Ideal ⟨2, ![a, c]⟩ .f32) (V : FVec Ideal ⟨2, ![a, b]⟩ .f32)
    (acc : FVec Ideal ⟨2, ![1, b]⟩ .f32)
    (h1 : Shape.Reduces ⟨2, ![a, c]⟩ [1] ⟨1, ![a]⟩) (hφ : FKind.Formats .f32)
    (hacc : (0x00000000#32 : BitVec 32) = 0x00000000#32)
    (hc : (⟨1, ![a]⟩ : Shape).ShapeCasts ⟨2, ![a, 1]⟩)
    (hb : (⟨2, ![a, 1]⟩ : Shape).Broadcasts ⟨2, ![a, b]⟩)
    (h0 : Shape.Reduces ⟨2, ![a, b]⟩ [0] ⟨1, ![b]⟩) (hφ' : FKind.Formats .f32)
    (hacc' : (0x00000000#32 : BitVec 32) = 0x00000000#32)
    (hc1 : (⟨1, ![b]⟩ : Shape).ShapeCasts ⟨2, ![1, b]⟩)
    (hs : (⟨2, ![1, b]⟩ : Shape).ShapeCasts ⟨2, ![1, b]⟩) (u : Fin 1) (q : Fin b) :
    shapeCast ⟨2, ![1, b]⟩
        (addf acc
          (shapeCast ⟨2, ![1, b]⟩
            (multiReduction (F := Ideal) .add [0] ⟨1, ![b]⟩
              (mulf V (broadcastTo ⟨2, ![a, b]⟩
                (shapeCast ⟨2, ![a, 1]⟩ (multiReduction (F := Ideal) .add [1] ⟨1, ![a]⟩ U 0x00000000#32 h1 hφ hacc) hc) hb))
              0x00000000#32 h0 hφ' hacc') hc1)) hs (ix2 u q)
      = acc (ix2 u q) + ∑ k : Fin a, V (ix2 k q) * ∑ x : Fin c, U (ix2 k x) :=
  (congrFun (shapeCast_self _ hs) (ix2 u q)).trans
    (congrArg (acc (ix2 u q) + ·)
      ((shapeCast_a_1a_apply _ hc1 u q).trans
        ((colSum_apply _ h0 hφ' hacc' q).trans
          (Finset.sum_congr rfl fun k _ => congrArg (V (ix2 k q) * ·)
            ((broadcastTo_a1_ab_apply _ hb k q).trans (rowSumCol_apply U h1 hφ hacc hc k 0))))))

end Cert.Tile
-- ==== Proof.MeanAggLinear.lean ====
/-
  One layer of mean aggregation over a graph followed by a linear map, as a function of its arrays.

  A node `i` carries a feature row `x i` of 128 reals, the sum `agg i` of the feature rows of its in-neighbours, and
  its in-degree `deg i`.  The neighbour sum is scaled by `w (deg i)`, where `w d = 1 / max d 1` when `d > 0` and
  `w d = 0` otherwise (so an isolated node contributes a zero row), the scaled row is joined with the node's own row
  into a row of 256 entries, and the joined row is multiplied by the transpose of a 128 × 256 weight matrix `W`, a
  bias `b` added:

      out i j = Σ_{k < 256} h i k · W j k + b j,     h i k = agg i k · w (deg i)  for k < 128,   h i k = x i (k − 128)  else.

  Splitting the sum at 128 gives the form in which the two halves are separate products:

      out i j = Σ_{k < 128} (agg i k · w (deg i)) · W j k  +  Σ_{k < 128} x i k · W j (128 + k)  +  b j.

  The split is a regrouping of a finite sum in a commutative monoid, so it holds on the extended reals as it does on
  the reals: nothing is distributed or cancelled, and no entry needs to be finite.
-/
import Mathlib.Algebra.BigOperators.Fin
import Idealize.ShloMosaic.Lib.ValueIdx
import Idealize.ShloMosaic.PureOps.Ideal

noncomputable section

namespace Cert.MeanAggLinear

open Idealize.ShloMosaic Idealize.ShloMosaic.ValueIdx

/-- The weight of a node of in-degree `d`: `1 / max d 1` when `d > 0`, and `0` otherwise. -/
def invDeg (d : Ideal .f32) : Ideal .f32 :=
  Scalar.select (FloatOps.cmpf (F := Ideal) .ogt d (Ideal.ofBits .f32 0x00000000#32))
    (Ideal.div (Ideal.ofBits .f32 0x3F800000#32) (max d (Ideal.ofBits .f32 0x3F800000#32)))
    (Ideal.ofBits .f32 0x00000000#32)

/-- Column `k` of the first 128 columns of a 256-column matrix. -/
abbrev lo (k : Fin 128) : Fin 256 := ⟨k.val, by omega⟩
/-- Column `128 + k`: column `k` of the last 128 columns. -/
abbrev hi (k : Fin 128) : Fin 256 := ⟨128 + k.val, by omega⟩

/-- The layer's output over `n` nodes, entry (i, j), in the split form: the scaled neighbour sums against the first
    128 columns of `W`, the node's own row against the last 128, and the bias. -/
def layer {n : ℕ} (x agg : FVec Ideal ⟨2, ![n, 128]⟩ .f32) (deg : FVec Ideal ⟨1, ![n]⟩ .f32)
    (W : FVec Ideal ⟨2, ![128, 256]⟩ .f32) (b : FVec Ideal ⟨1, ![128]⟩ .f32) : FVec Ideal ⟨2, ![n, 128]⟩ .f32 :=
  fun i =>
    (∑ k : Fin 128, (agg (ix2 (i 0) k) * invDeg (deg (ix1 (i 0)))) * W (ix2 (i 1) (lo k)))
      + (∑ k : Fin 128, x (ix2 (i 0) k) * W (ix2 (i 1) (hi k)))
      + b (ix1 (i 1))

theorem layer_apply {n : ℕ} (x agg : FVec Ideal ⟨2, ![n, 128]⟩ .f32) (deg : FVec Ideal ⟨1, ![n]⟩ .f32)
    (W : FVec Ideal ⟨2, ![128, 256]⟩ .f32) (b : FVec Ideal ⟨1, ![128]⟩ .f32) (p : Fin n) (q : Fin 128) :
    layer x agg deg W b (ix2 p q)
      = (∑ k : Fin 128, (agg (ix2 p k) * invDeg (deg (ix1 p))) * W (ix2 q (lo k)))
        + (∑ k : Fin 128, x (ix2 p k) * W (ix2 q (hi k)))
        + b (ix1 q) := rfl

/-- A sum over 256 columns is the sum over the first 128 plus the sum over the last 128. -/
theorem sum_halves {M : Type} [AddCommMonoid M] (f : Fin 256 → M) :
    (∑ k : Fin 256, f k) = (∑ k : Fin 128, f (lo k)) + (∑ k : Fin 128, f (hi k)) := by
  have h := Fin.sum_univ_add (a := 128) (b := 128) (f : Fin (128 + 128) → M)
  refine h.trans ?_
  refine congrArg₂ (· + ·) (Finset.sum_congr rfl fun k _ => ?_) (Finset.sum_congr rfl fun k _ => ?_)
  · exact congrArg f (Fin.ext rfl)
  · exact congrArg f (Fin.ext rfl)

end Cert.MeanAggLinear

end
-- ==== Proof.TileBody.lean ====
/-
  One tile of the layer.  At a grid point the body holds a block of 2000 nodes: their neighbour sums `a` and own
  rows `xb` (2000 × 128 each), their in-degrees `d` as a column (2000 × 1), the two halves `w1`, `w2` of the
  weight matrix already transposed (128 × 128 each: `w1 k j = W j k`, `w2 k j = W j (128 + k)`) and the bias as a
  row (1 × 128).  It scales row `r` of `a` by the weight of that node's degree, multiplies the scaled block by `w1`
  and the block `xb` by `w2`, each product accumulated from zero, and adds the two products and the bias row.

  Read at entry (r, q) over the extended reals (a change of float format is the identity there, and a product into
  a zero accumulator is the plain sum over the contracted coordinate):

      Σ_{k < 128} (a r k · w (d r)) · w1 k q  +  Σ_{k < 128} xb r k · w2 k q  +  bias q.
-/
import proofs.«177238_j15152644620657_1_alg».proof.Proof.Gen.KernelIdeal.Skeleton
import proofs.«177238_j15152644620657_1_alg».proof.Proof.LibPlainProduct
import proofs.«177238_j15152644620657_1_alg».proof.Proof.LibTile
import proofs.«177238_j15152644620657_1_alg».proof.Proof.MeanAggLinear
import Idealize.ShloMosaic.Lib.ValueLayout
import Idealize.ShloMosaic.Lib.Pipeline.Value

noncomputable section

namespace Cert.KernelIdeal.Tile

open Cert.KernelIdeal Cert.KernelIdeal.Gen Idealize.ShloMosaic Idealize.ShloMosaic.ValueIdx Cert.MeanAggLinear

/-- Both of the body's products contract the left operand's columns with the right operand's rows. -/
theorem record_plain : dot_S2000x128_S128x128_S2000x128_1_0_0_1_n_n = DotDims.plain 2000 128 128 := rfl

/-- The degree column's weight, spread along a row of the tile: at (r, k) it is the weight of node `r`'s degree. -/
theorem weight_apply (d : Vec Ideal S2000x1 .f32) (r : Fin 2000) (k : Fin 128) :
    broadcastTo S2000x128
        (select (cmpf CmpFPredicate.ogt d (broadcast S2000x1 (FloatOps.ofBits (F := Ideal) FTy.f32 0x00000000#32)))
          (divf (broadcast S2000x1 (FloatOps.ofBits (F := Ideal) FTy.f32 0x3F800000#32))
            (maximumf d (broadcast S2000x1 (FloatOps.ofBits (F := Ideal) FTy.f32 0x3F800000#32))))
          (broadcast S2000x1 (FloatOps.ofBits (F := Ideal) FTy.f32 0x00000000#32)))
        broadcasts_S2000x1_S2000x128 (ix2 r k)
      = invDeg (d (ix2 r (0 : Fin 1))) :=
  (Cert.Tile.broadcastTo_a1_ab_apply _ broadcasts_S2000x1_S2000x128 r k).trans rfl

/-- The tile's stored value at entry (r, q). -/
theorem tile_apply (d : Vec Ideal S2000x1 .f32) (a xb : Vec Ideal S2000x128 .f32) (w1 w2 : Vec Ideal S128x128 .f32)
    (bb : Vec Ideal S1x128 .f32) (r : Fin 2000) (q : Fin 128) :
    k0_pay1 (F := Ideal) d a xb w1 w2 bb (ix2 r q)
      = (∑ k : Fin 128, (a (ix2 r k) * invDeg (d (ix2 r (0 : Fin 1)))) * w1 (ix2 k q))
        + (∑ k : Fin 128, xb (ix2 r k) * w2 (ix2 k q))
        + bb (ix2 (0 : Fin 1) q) := by
  unfold k0_pay1
  simp only [shapeCast_self, record_plain, addf_apply]
  refine congrArg₂ (· + ·) (congrArg₂ (· + ·) ?_ ?_) ?_
  · refine (Cert.PlainProduct.matmul_zero_apply none _ _ r q).trans (Finset.sum_congr rfl fun k _ => ?_)
    exact congrArg₂ (· * ·) (congrArg (a (ix2 r k) * ·) (weight_apply d r k)) rfl
  · exact Cert.PlainProduct.matmul_zero_apply none _ _ r q
  · exact broadcastTo_1b_ab_apply bb broadcasts_S1x128_S2000x128 r q

end Cert.KernelIdeal.Tile

end
-- ==== Proof.RegionEntry.lean ====
/-
  The arrays the kernel's windows read, as functions of the layer's five arguments.

  Before the kernel runs, plain array operations prepare its operands:
    • the neighbour sums: each edge (src, dst) adds row `src` of the features to row `dst` of a zero table
      (an edge index below zero counts from the end of the table, as array indexing does);
    • the in-degrees: each edge adds one to entry `dst` of a zero vector; the kernel reads them as a column;
    • the two halves of the weight matrix, each transposed: `w1 k j = W j k` and `w2 k j = W j (128 + k)`;
    • the bias as a row.
  The features themselves are read as given.  The neighbour sums and the in-degrees are kept as two named terms:
  the reference computes them by the same operations, so the layer is compared as a function of them and they are
  never opened.
-/
import proofs.«177238_j15152644620657_1_alg».proof.Proof.Gen.KernelIdeal.Frame
import proofs.«177238_j15152644620657_1_alg».proof.Proof.MeanAggLinear
import Idealize.ShloMosaic.Lib.StableHlo.Run
import Idealize.ShloMosaic.Lib.ValueLayout
import Idealize.ShloMosaic.Lib.Pipeline.Value

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx Cert.MeanAggLinear

variable {F : FTy → Type} [FloatOps F]

/-- The neighbour sums: row `dst` of the result is the sum, over the edges into `dst`, of row `src` of `x`. -/
def nbrSum (x : (⟨S100000x128, .f32⟩ : BufTy).Contents (Elt F)) (src dst : (⟨S1600000, .i32⟩ : BufTy).Contents (Elt F)) : (⟨S100000x128, .f32⟩ : BufTy).Contents (Elt F) :=
  Host.scatterAdd scatter_S100000x128_S1600000x1_S1600000x128_1_0_0_1
    (broadcastInDim S100000x128 ![] bcast_S_S100000x128 (constant (F := F) S_ .f32 0x00000000#32))
    (broadcastInDim S1600000x1 ![0] bcast_S1600000_S1600000x1_0 dst)
    (Host.gather gather_S100000x128_S1600000x1_S1600000x128_1_0_n_n_0_1_1128 x
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- The in-degrees: entry `dst` of the result counts the edges into `dst`. -/
def inDeg (dst : (⟨S1600000, .i32⟩ : BufTy).Contents (Elt F)) : (⟨S100000, .f32⟩ : BufTy).Contents (Elt F) :=
  Host.scatterAdd scatter_S100000_S1600000x1_S1600000_n_0_0_1
    (broadcastInDim S100000 ![] bcast_S_S100000 (constant (F := F) S_ .f32 0x00000000#32))
    (broadcastInDim S1600000x1 ![0] bcast_S1600000_S1600000x1_0 dst)
    (broadcastInDim S1600000 ![] bcast_S_S1600000 (constant (F := F) S_ .f32 0x3F800000#32))

variable (m : (ℓ : Loc nD τ sig) → Buf (Elt F) ℓ)

/-- The kernel's first window reads the neighbour sums. -/
theorem found_nbrSum (c : Dev nD) :
    V m c main_v9 = nbrSum (F := F) (m ((c : Thread nD τ).loc main_arg0)) (m ((c : Thread nD τ).loc main_arg1)) (m ((c : Thread nD τ).loc main_arg2)) := by
  dsimp only [V, hostOps0]; after_results <;> rfl

/-- Its third window reads the in-degrees as a column. -/
theorem found_degCol (c : Dev nD) :
    V m c main_v14 = broadcastInDim S100000x1 ![0] bcast_S100000_S100000x1_0 (inDeg (F := F) (m ((c : Thread nD τ).loc main_arg2))) := by
  dsimp only [V, hostOps0]; after_results <;> rfl

/-- Its fourth window reads the first 128 columns of the weight matrix, transposed. -/
theorem found_w1 (c : Dev nD) :
    V m c main_v16 = transpose S128x128 [1, 0] (extractStridedSlice S128x128 ![0, 0] (m ((c : Thread nD τ).loc main_arg3)) slices_S128x256_S128x128_0_0) transposes_S128x128_S128x128_1_0 := by
  dsimp only [V, hostOps0]; after_results <;> rfl

/-- Its fifth window reads the last 128 columns of the weight matrix, transposed. -/
theorem found_w2 (c : Dev nD) :
    V m c main_v18 = transpose S128x128 [1, 0] (extractStridedSlice S128x128 ![0, 128] (m ((c : Thread nD τ).loc main_arg3)) slices_S128x256_S128x128_0_128) transposes_S128x128_S128x128_1_0 := by
  dsimp only [V, hostOps0]; after_results <;> rfl

/-- Its sixth window reads the bias as a row. -/
theorem found_biasRow (c : Dev nD) :
    V m c main_v19 = broadcastInDim S1x128 ![1] bcast_S128_S1x128_1 (m ((c : Thread nD τ).loc main_arg4)) := by
  dsimp only [V, hostOps0]; after_results <;> rfl

/-! ## The same, at each window's own array reference -/

theorem win0_reads (c : Dev nD) :
    V m c (Pipeline.arrRef spec0 0) = nbrSum (F := F) (m ((c : Thread nD τ).loc main_arg0)) (m ((c : Thread nD τ).loc main_arg1)) (m ((c : Thread nD τ).loc main_arg2)) :=
  found_nbrSum m c
theorem win1_reads (c : Dev nD) : V m c (Pipeline.arrRef spec0 1) = m ((c : Thread nD τ).loc main_arg0) :=
  V_main_arg0 m c
theorem win2_reads (c : Dev nD) :
    V m c (Pipeline.arrRef spec0 2) = broadcastInDim S100000x1 ![0] bcast_S100000_S100000x1_0 (inDeg (F := F) (m ((c : Thread nD τ).loc main_arg2))) :=
  found_degCol m c
theorem win3_reads (c : Dev nD) :
    V m c (Pipeline.arrRef spec0 3) = transpose S128x128 [1, 0] (extractStridedSlice S128x128 ![0, 0] (m ((c : Thread nD τ).loc main_arg3)) slices_S128x256_S128x128_0_0) transposes_S128x128_S128x128_1_0 :=
  found_w1 m c
theorem win4_reads (c : Dev nD) :
    V m c (Pipeline.arrRef spec0 4) = transpose S128x128 [1, 0] (extractStridedSlice S128x128 ![0, 128] (m ((c : Thread nD τ).loc main_arg3)) slices_S128x256_S128x128_0_128) transposes_S128x128_S128x128_1_0 :=
  found_w2 m c
theorem win5_reads (c : Dev nD) :
    V m c (Pipeline.arrRef spec0 5) = broadcastInDim S1x128 ![1] bcast_S128_S1x128_1 (m ((c : Thread nD τ).loc main_arg4)) :=
  found_biasRow m c

/-! ## Those arrays at an entry -/

variable {α : Type}

/-- The degree column at (p, 0) is the degree of node `p`. -/
theorem degCol_apply (y : S100000.Idx → α) (p : Fin 100000) (u : Fin 1) :
    broadcastInDim S100000x1 ![0] bcast_S100000_S100000x1_0 y (ix2 p u) = y (ix1 p) :=
  broadcastInDim_apply _ bcast_S100000_S100000x1_0 y (ix2 p u) (ix1 p) (fun a => match a with
    | ⟨0, _⟩ => by show p.val = if (100000 : Nat) = 1 then 0 else p.val; rw [if_neg (by decide)])

/-- The first transposed half at (k, q) is `W q k`. -/
theorem w1_apply (W : S128x256.Idx → α) (k q : Fin 128) :
    transpose S128x128 [1, 0] (extractStridedSlice S128x128 ![0, 0] W slices_S128x256_S128x128_0_0) transposes_S128x128_S128x128_1_0 (ix2 k q)
      = W (ix2 q (lo k)) :=
  (transpose_ix2_apply _ transposes_S128x128_S128x128_1_0 k q).trans
    (slice2_axis1_apply 0 W slices_S128x256_S128x128_0_0 q k (lo k) (Nat.zero_add _).symm)

/-- The second transposed half at (k, q) is `W q (128 + k)`. -/
theorem w2_apply (W : S128x256.Idx → α) (k q : Fin 128) :
    transpose S128x128 [1, 0] (extractStridedSlice S128x128 ![0, 128] W slices_S128x256_S128x128_0_128) transposes_S128x128_S128x128_1_0 (ix2 k q)
      = W (ix2 q (hi k)) :=
  (transpose_ix2_apply _ transposes_S128x128_S128x128_1_0 k q).trans
    (slice2_axis1_apply 128 W slices_S128x256_S128x128_0_128 q k (hi k) rfl)

/-- The bias row at (0, q) is `b q`. -/
theorem biasRow_apply (b : S128.Idx → α) (u : Fin 1) (q : Fin 128) :
    broadcastInDim S1x128 ![1] bcast_S128_S1x128_1 b (ix2 u q) = b (ix1 q) :=
  broadcastInDim_apply _ bcast_S128_S1x128_1 b (ix2 u q) (ix1 q) (fun a => match a with
    | ⟨0, _⟩ => by show q.val = if (128 : Nat) = 1 then 0 else q.val; rw [if_neg (by decide)])

end Cert.KernelIdeal.Entry

end
-- ==== Proof.BlockReads.lean ====
/-
  Each window's block at a grid point, read at an entry, for any contents of the window's array.

  The grid has 50 points.  At point `t` the three node-indexed windows (neighbour sums, own rows, degree column)
  and the output window hold rows 2000·t … 2000·t + 1999 of their arrays; the two weight halves and the bias row are
  whole at every point.  So entry (r, k) of a node-indexed block is entry (2000·t + r, k) of its array, and an
  entry of a resident block is the same entry of its array.  Reading a block is reading the array at shifted
  coordinates, whatever the array holds.
-/
import proofs.«177238_j15152644620657_1_alg».proof.Proof.Gen.KernelIdeal.Frame
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx

/-- The block indices at point `t`: block row `t` for the node-indexed windows, block (0, 0) for the resident ones. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `r` of the block at point `t` is row 2000·t + r of the array. -/
abbrev row (t : Fin cfg0.N) (r : Fin 2000) : Fin 100000 :=
  ⟨t.val * 2000 + r.val, by have ht : t.val < 50 := t.isLt; have hr := r.isLt; omega⟩

/-- The blocks at point `t` of arrays with any contents, at their literal types. -/
abbrev aggBlk (X : Vec Ideal S100000x128 .f32) (t : Fin cfg0.N) : Vec Ideal S2000x128 .f32 := ((cfg0.win 0).blk t).view.read (Elt Ideal) X
abbrev xBlk (X : Vec Ideal S100000x128 .f32) (t : Fin cfg0.N) : Vec Ideal S2000x128 .f32 := ((cfg0.win 1).blk t).view.read (Elt Ideal) X
abbrev degBlk (X : Vec Ideal S100000x1 .f32) (t : Fin cfg0.N) : Vec Ideal S2000x1 .f32 := ((cfg0.win 2).blk t).view.read (Elt Ideal) X
abbrev w1Blk (X : Vec Ideal S128x128 .f32) (t : Fin cfg0.N) : Vec Ideal S128x128 .f32 := ((cfg0.win 3).blk t).view.read (Elt Ideal) X
abbrev w2Blk (X : Vec Ideal S128x128 .f32) (t : Fin cfg0.N) : Vec Ideal S128x128 .f32 := ((cfg0.win 4).blk t).view.read (Elt Ideal) X
abbrev biasBlk (X : Vec Ideal S1x128 .f32) (t : Fin cfg0.N) : Vec Ideal S1x128 .f32 := ((cfg0.win 5).blk t).view.read (Elt Ideal) X

theorem aggBlk_apply (X : Vec Ideal S100000x128 .f32) (t : Fin cfg0.N) (r : Fin 2000) (k : Fin 128) :
    aggBlk X t (ix2 r k) = X (ix2 (row t r) k) := by
  show X (((cfg0.win 0).blk t).view.emb (ix2 r k)) = X (ix2 (row t r) k)
  obtain ⟨e0, e1, -⟩ := idx_facts t
  refine congrArg X (funext fun a => Fin.ext ?_)
  match a with
  | ⟨0, _⟩ => show win0_0.index t (0 : Fin 2) * 2000 + 1 * r.val = t.val * 2000 + r.val; omega
  | ⟨1, _⟩ => show win0_0.index t (1 : Fin 2) * 128 + 1 * k.val = k.val; omega

theorem xBlk_apply (X : Vec Ideal S100000x128 .f32) (t : Fin cfg0.N) (r : Fin 2000) (k : Fin 128) :
    xBlk X t (ix2 r k) = X (ix2 (row t r) k) := by
  show X (((cfg0.win 1).blk t).view.emb (ix2 r k)) = X (ix2 (row t r) k)
  obtain ⟨-, -, e0, e1, -⟩ := idx_facts t
  refine congrArg X (funext fun a => Fin.ext ?_)
  match a with
  | ⟨0, _⟩ => show win0_1.index t (0 : Fin 2) * 2000 + 1 * r.val = t.val * 2000 + r.val; omega
  | ⟨1, _⟩ => show win0_1.index t (1 : Fin 2) * 128 + 1 * k.val = k.val; omega

theorem degBlk_apply (X : Vec Ideal S100000x1 .f32) (t : Fin cfg0.N) (r : Fin 2000) (u : Fin 1) :
    degBlk X t (ix2 r u) = X (ix2 (row t r) u) := by
  show X (((cfg0.win 2).blk t).view.emb (ix2 r u)) = X (ix2 (row t r) u)
  obtain ⟨-, -, -, -, e0, e1, -⟩ := idx_facts t
  refine congrArg X (funext fun a => Fin.ext ?_)
  match a with
  | ⟨0, _⟩ => show win0_2.index t (0 : Fin 2) * 2000 + 1 * r.val = t.val * 2000 + r.val; omega
  | ⟨1, _⟩ => show win0_2.index t (1 : Fin 2) * 1 + 1 * u.val = u.val; omega

theorem w1Blk_apply (X : Vec Ideal S128x128 .f32) (t : Fin cfg0.N) (k q : Fin 128) :
    w1Blk X t (ix2 k q) = X (ix2 k q) := by
  show X (((cfg0.win 3).blk t).view.emb (ix2 k q)) = X (ix2 k q)
  obtain ⟨-, -, -, -, -, -, e0, e1, -⟩ := idx_facts t
  refine congrArg X (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega

theorem w2Blk_apply (X : Vec Ideal S128x128 .f32) (t : Fin cfg0.N) (k q : Fin 128) :
    w2Blk X t (ix2 k q) = X (ix2 k q) := by
  show X (((cfg0.win 4).blk t).view.emb (ix2 k q)) = X (ix2 k q)
  obtain ⟨-, -, -, -, -, -, -, -, e0, e1, -⟩ := idx_facts t
  refine congrArg X (funext fun a => Fin.ext ?_)
  match a with
  | ⟨0, _⟩ => show win0_4.index t (0 : Fin 2) * 128 + 1 * k.val = k.val; omega
  | ⟨1, _⟩ => show win0_4.index t (1 : Fin 2) * 128 + 1 * q.val = q.val; omega

theorem biasBlk_apply (X : Vec Ideal S1x128 .f32) (t : Fin cfg0.N) (u : Fin 1) (q : Fin 128) :
    biasBlk X t (ix2 u q) = X (ix2 u q) := by
  show X (((cfg0.win 5).blk t).view.emb (ix2 u q)) = X (ix2 u q)
  obtain ⟨-, -, -, -, -, -, -, -, -, -, e0, e1, -⟩ := idx_facts t
  refine congrArg X (funext fun a => Fin.ext ?_)
  match a with
  | ⟨0, _⟩ => show win0_5.index t (0 : Fin 2) * 1 + 1 * u.val = u.val; omega
  | ⟨1, _⟩ => show win0_5.index t (1 : Fin 2) * 128 + 1 * q.val = q.val; omega

end Cert.KernelIdeal.Blocks

end
-- ==== Proof.KernelLayer.lean ====
/-
  The kernel's result array is the layer.

  At grid point `t` the body stores, at entry (r, q) of the output block, the tile's value of the six input
  blocks (Proof/TileBody.lean).  Each input block read at an entry is its array read at the matching entry
  (Proof/BlockReads.lean), and those arrays are the neighbour sums, the features, the in-degree column, the two
  transposed halves of the weight matrix and the bias row (Proof/RegionEntry.lean); so what point `t` writes back
  is rows 2000·t … 2000·t + 1999 of the layer.  The 50 blocks of 2000 rows cover all 100000 rows — row `i` lies in
  block `i / 2000` — hence after the run the result array holds the layer at every entry.
-/
import proofs.«177238_j15152644620657_1_alg».proof.Proof.Gen.KernelIdeal.Value
import proofs.«177238_j15152644620657_1_alg».proof.Proof.TileBody
import proofs.«177238_j15152644620657_1_alg».proof.Proof.RegionEntry
import proofs.«177238_j15152644620657_1_alg».proof.Proof.BlockReads
import proofs.«177238_j15152644620657_1_alg».proof.Proof.MeanAggLinear
import Idealize.ShloMosaic.Lib.Pipeline.Value

noncomputable section

namespace Cert.KernelIdeal.Layer

open Cert.KernelIdeal Cert.KernelIdeal.Gen Idealize.ShloMosaic Idealize.ShloMosaic.TcCoe Idealize.SL.Sem
open Idealize.ShloMosaic.Pipeline (Dat)
open Idealize.ShloMosaic.ValueIdx Cert.MeanAggLinear Cert.KernelIdeal.Entry Cert.KernelIdeal.Blocks Cert.KernelIdeal.Tile

/-- The tile at point `t`, entry (r, q), of the blocks of any features `X`, neighbour sums `A`, in-degrees `D`
    (as a column), weight matrix `W` (as its two transposed halves) and bias `B` (as a row), is the layer of those
    five arrays at entry (2000·t + r, q). -/
theorem tile_eq_layer (X A : Vec Ideal S100000x128 .f32) (D : Vec Ideal S100000 .f32) (W : Vec Ideal S128x256 .f32)
    (B : Vec Ideal S128 .f32) (t : Fin cfg0.N) (r : Fin 2000) (q : Fin 128) :
    k0_pay1 (F := Ideal) (degBlk (broadcastInDim S100000x1 ![0] bcast_S100000_S100000x1_0 D) t) (aggBlk A t) (xBlk X t)
        (w1Blk (transpose S128x128 [1, 0] (extractStridedSlice S128x128 ![0, 0] W slices_S128x256_S128x128_0_0) transposes_S128x128_S128x128_1_0) t) (w2Blk (transpose S128x128 [1, 0] (extractStridedSlice S128x128 ![0, 128] W slices_S128x256_S128x128_0_128) transposes_S128x128_S128x128_1_0) t) (biasBlk (broadcastInDim S1x128 ![1] bcast_S128_S1x128_1 B) t) (ix2 r q)
      = layer X A D W B (ix2 (row t r) q) := by
  have h := tile_apply (degBlk (broadcastInDim S100000x1 ![0] bcast_S100000_S100000x1_0 D) t) (aggBlk A t) (xBlk X t)
    (w1Blk (transpose S128x128 [1, 0] (extractStridedSlice S128x128 ![0, 0] W slices_S128x256_S128x128_0_0) transposes_S128x128_S128x128_1_0) t) (w2Blk (transpose S128x128 [1, 0] (extractStridedSlice S128x128 ![0, 128] W slices_S128x256_S128x128_0_128) transposes_S128x128_S128x128_1_0) t) (biasBlk (broadcastInDim S1x128 ![1] bcast_S128_S1x128_1 B) t) r q
  refine h.trans ?_
  rw [layer_apply]
  refine congrArg₂ (· + ·) (congrArg₂ (· + ·) (Finset.sum_congr rfl fun k _ => ?_) (Finset.sum_congr rfl fun k _ => ?_)) ?_
  · rw [aggBlk_apply, degBlk_apply, w1Blk_apply, degCol_apply, w1_apply]
  · rw [xBlk_apply, w2Blk_apply, w2_apply]
  · rw [biasBlk_apply, biasRow_apply]

/-- A block `P` of 2000 rows, cut to the output window at point `t`, is the block of an array `G` there as soon as
    its entry (r, q) is `G`'s entry (2000·t + r, q). -/
theorem cut_eq_read_of (P : Vec Ideal S2000x128 .f32) (G : Vec Ideal S100000x128 .f32) (t : Fin cfg0.N)
    (h : ∀ (r : Fin 2000) (q : Fin 128), P (ix2 r q) = G (ix2 (row t r) q)) :
    (cfg0.win 6).cut (grid0.coords t) P = ((cfg0.win 6).blk t).view.read (Elt Ideal) G := by
  funext j
  obtain ⟨r, q, rfl⟩ : ∃ (r : Fin 2000) (q : Fin 128), j = ix2 r q := ⟨j 0, j 1, eq_ix2 j⟩
  show P (ix2 r q) = G (((cfg0.win 6).blk t).view.emb (ix2 r q))
  refine (h r q).trans (congrArg G (funext fun a => Fin.ext ?_))
  obtain ⟨-, -, -, -, -, -, -, -, -, -, -, -, e0, e1⟩ := idx_facts t
  match a with
  | ⟨0, _⟩ => show t.val * 2000 + r.val = win0_6.index t (0 : Fin 2) * 2000 + 1 * r.val; omega
  | ⟨1, _⟩ => show q.val = win0_6.index t (1 : Fin 2) * 128 + 1 * q.val; omega

variable (m : (ℓ : Loc nD τ sig) → Buf (Elt Ideal) ℓ) (ρ : Dev nD → PrngReg)

/-- The layer of the five arguments as launched on core `c`: the neighbour sums and in-degrees are the arguments'. -/
abbrev out (c : Dev nD) : Vec Ideal S100000x128 .f32 :=
  layer (m ((c : Thread nD τ).loc main_arg0)) (nbrSum (F := Ideal) (m ((c : Thread nD τ).loc main_arg0)) (m ((c : Thread nD τ).loc main_arg1)) (m ((c : Thread nD τ).loc main_arg2))) (inDeg (F := Ideal) (m ((c : Thread nD τ).loc main_arg2))) (m ((c : Thread nD τ).loc main_arg3)) (m ((c : Thread nD τ).loc main_arg4))

/-! ## The six input blocks at a point, as blocks of those arrays -/

theorem blk0_eq (c : Dev nD) (t : Fin cfg0.N) : iblk m c 0 t = aggBlk (nbrSum (F := Ideal) (m ((c : Thread nD τ).loc main_arg0)) (m ((c : Thread nD τ).loc main_arg1)) (m ((c : Thread nD τ).loc main_arg2))) t := by
  unfold iblk; rw [win0_reads m c]
theorem blk1_eq (c : Dev nD) (t : Fin cfg0.N) : iblk m c 1 t = xBlk (m ((c : Thread nD τ).loc main_arg0)) t := by
  unfold iblk; rw [win1_reads m c]
theorem blk2_eq (c : Dev nD) (t : Fin cfg0.N) : iblk m c 2 t = degBlk (broadcastInDim S100000x1 ![0] bcast_S100000_S100000x1_0 (inDeg (F := Ideal) (m ((c : Thread nD τ).loc main_arg2)))) t := by
  unfold iblk; rw [win2_reads m c]
theorem blk3_eq (c : Dev nD) (t : Fin cfg0.N) : iblk m c 3 t = w1Blk (transpose S128x128 [1, 0] (extractStridedSlice S128x128 ![0, 0] (m ((c : Thread nD τ).loc main_arg3)) slices_S128x256_S128x128_0_0) transposes_S128x128_S128x128_1_0) t := by
  unfold iblk; rw [win3_reads m c]
theorem blk4_eq (c : Dev nD) (t : Fin cfg0.N) : iblk m c 4 t = w2Blk (transpose S128x128 [1, 0] (extractStridedSlice S128x128 ![0, 128] (m ((c : Thread nD τ).loc main_arg3)) slices_S128x256_S128x128_0_128) transposes_S128x128_S128x128_1_0) t := by
  unfold iblk; rw [win4_reads m c]
theorem blk5_eq (c : Dev nD) (t : Fin cfg0.N) : iblk m c 5 t = biasBlk (broadcastInDim S1x128 ![1] bcast_S128_S1x128_1 (m ((c : Thread nD τ).loc main_arg4))) t := by
  unfold iblk; rw [win5_reads m c]

theorem origin : (![0, 0] : Fin 2 → Nat) = fun _ => 0 := funext fun a => by fin_cases a <;> rfl

/-- What point `t` writes back is its block of the layer. -/
theorem flushed_eq (c : Dev nD) (t : Fin cfg0.N) :
    (dats m 0 c).flushed 6 t = ((cfg0.win 6).blk t).view.read (Elt Ideal) (out m c) := by
  rw [Cert.KernelIdeal.Value.flushed6, blk0_eq m c t, blk1_eq m c t, blk2_eq m c t, blk3_eq m c t, blk4_eq m c t, blk5_eq m c t]
  unfold out0_6
  rw [View.canon_unit_zero origin]
  simp only [View.ld_unit_zero (S := S2000x128) origin, View.ld_unit_zero (S := S2000x1) origin,
    View.ld_unit_zero (S := S128x128) origin, View.ld_unit_zero (S := S1x128) origin]
  exact cut_eq_read_of _ _ t (fun r q => tile_eq_layer (m ((c : Thread nD τ).loc main_arg0)) (nbrSum (F := Ideal) (m ((c : Thread nD τ).loc main_arg0)) (m ((c : Thread nD τ).loc main_arg1)) (m ((c : Thread nD τ).loc main_arg2))) (inDeg (F := Ideal) (m ((c : Thread nD τ).loc main_arg2))) (m ((c : Thread nD τ).loc main_arg3)) (m ((c : Thread nD τ).loc main_arg4)) t r q)

/-- An entry is in point `t`'s output block iff its row is one of the block's 2000 rows. -/
theorem mem_blk (t : Fin cfg0.N) (i : S100000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v20).slice (win0_6.rect t)).set ↔ _
  rw [View.set_slice_whole, Rect.mem_set_unit]
  exact Iff.rfl

/-- Every entry of the result array lies in some point's block: row `i` in block `i / 2000`. -/
theorem cover (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hlt : (i 0).val / 2000 < cfg0.N := by show (i 0).val / 2000 < 50; omega
  obtain ⟨-, -, -, -, -, -, -, -, -, -, -, -, e0, e1⟩ := idx_facts ⟨(i 0).val / 2000, hlt⟩
  have e0' : win0_6.index ⟨(i 0).val / 2000, hlt⟩ (0 : Fin 2) = (i 0).val / 2000 := e0
  refine ⟨⟨(i 0).val / 2000, hlt⟩, flush0_6 _, ?_⟩
  rw [mem_blk]
  intro a
  match a with
  | ⟨0, _⟩ => show win0_6.index ⟨(i 0).val / 2000, hlt⟩ (0 : Fin 2) * 2000 ≤ (i 0).val ∧ (i 0).val < win0_6.index ⟨(i 0).val / 2000, hlt⟩ (0 : Fin 2) * 2000 + 2000; omega
  | ⟨1, _⟩ => show win0_6.index ⟨(i 0).val / 2000, hlt⟩ (1 : Fin 2) * 128 ≤ (i 1).val ∧ (i 1).val < win0_6.index ⟨(i 0).val / 2000, hlt⟩ (1 : Fin 2) * 128 + 128; omega

/-- After the run the result array is the layer. -/
theorem final (c : Dev nD) : (dats m 0 c).arrAt 6 cfg0.N = out m c :=
  (dats m 0 c).arrAt_eq_of_cover 6 (out m c) (fun t _ => flushed_eq m c t) cover

/-- The kernel's run: every weakly fair execution ends with the result array at the layer of the arguments and the
    arguments unchanged. -/
theorem run : θ_run defs (onTc (τ := τ) (main (F := Ideal))) ⟨m, fun _ => 0, ρ⟩ fun r => ∀ c : Dev nD,
      r.2.mem ((c : Thread nD τ).loc main_v20) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩)
    (Cert.KernelIdeal.Value.run_blocks m ρ)

end Cert.KernelIdeal.Layer

end
-- ==== Proof.RefLayer.lean ====
/-
  The reference's result is the layer.

  The reference scales the neighbour sums by the degree weights, joins the scaled rows with the nodes' own rows
  into rows of 256 entries, multiplies by the transposed weight matrix in one product, and adds the bias.  Read at
  entry (p, q) its product is a sum over 256 columns; the first 128 columns of a joined row come from the scaled
  neighbour sums and the last 128 from the node's own row, so splitting the sum at 128 gives the layer's two
  separate products.  The degree weight is computed by the same comparisons and the same division as in the layer's
  definition, on the same two constants 0 and 1.
-/
import proofs.«177238_j15152644620657_1_alg».proof.Proof.RefRead
import proofs.«177238_j15152644620657_1_alg».proof.Proof.MeanAggLinear
import Idealize.ShloMosaic.Lib.Pipeline.Value
import Idealize.ShloMosaic.Lib.ValueIdx

noncomputable section

namespace Cert.ReferenceIdeal.Layer

open Cert.ReferenceIdeal Cert.ReferenceIdeal.Gen Cert.ReferenceIdeal.ReadP Idealize.ShloMosaic Idealize.ShloMosaic.ValueIdx Cert.MeanAggLinear

variable {α : Type}

/-- A joined row's column `k < 128` is the first piece's column `k`. -/
theorem joined_lo (h x : S100000x128.Idx → α) (p : Fin 100000) (k : Fin 128) :
    concatenate S100000x256 1 [⟨S100000x128, h⟩, ⟨S100000x128, x⟩] concatenates_S100000x128_S100000x128_S100000x256_d1 (ix2 p (lo k))
      = h (ix2 p k) :=
  concatenate_pair_apply_left 1 h x concatenates_S100000x128_S100000x128_S100000x256_d1 (ix2 p (lo k)) rfl (ix2 p k)
    (fun b => match b with | ⟨0, _⟩ => rfl | ⟨1, _⟩ => rfl)

/-- A joined row's column `128 + k` is the second piece's column `k`. -/
theorem joined_hi (h x : S100000x128.Idx → α) (p : Fin 100000) (k : Fin 128) :
    concatenate S100000x256 1 [⟨S100000x128, h⟩, ⟨S100000x128, x⟩] concatenates_S100000x128_S100000x128_S100000x256_d1 (ix2 p (hi k))
      = x (ix2 p k) :=
  concatenate_pair_apply_right 1 h x concatenates_S100000x128_S100000x128_S100000x256_d1 (ix2 p (hi k)) rfl rfl (ix2 p k)
    (fun b hb => match b, hb with
      | ⟨0, _⟩, _ => rfl
      | ⟨1, _⟩, hb => absurd rfl hb)
    (by show k.val + 128 = 128 + k.val; omega)

/-- The reference's degree weight at a node is the layer's weight of that node's in-degree. -/
theorem weight_eq (x2 : (⟨S1600000, .i32⟩ : BufTy).Contents (Elt Ideal)) (j : S100000.Idx) :
    val_main_v20 (F := Ideal) x2 j = invDeg (val_main_v13 (F := Ideal) x2 j) := by
  rw [val_main_v20_apply, val_main_v15_apply, val_main_v19_apply, val_main_v17_apply, val_main_v14_apply,
    val_main_v16_apply, val_main_v18_apply, val_main_call0_v1_apply]
  rfl

/-- The reference's result as one array: the layer of the features, the neighbour sums and in-degrees the reference
    computes, the weight matrix and the bias. -/
theorem result_eq (x0 : (⟨S100000x128, .f32⟩ : BufTy).Contents (Elt Ideal)) (x1 x2 : (⟨S1600000, .i32⟩ : BufTy).Contents (Elt Ideal))
    (x3 : (⟨S128x256, .f32⟩ : BufTy).Contents (Elt Ideal)) (x4 : (⟨S128, .f32⟩ : BufTy).Contents (Elt Ideal)) :
    val_main_v29 (F := Ideal) x0 x1 x2 x3 x4
      = layer x0 (val_main_v9 (F := Ideal) x0 x1 x2) (val_main_v13 (F := Ideal) x2) x3 x4 := by
  funext i
  obtain ⟨p, q, rfl⟩ : ∃ (p : Fin 100000) (q : Fin 128), i = ix2 p q := ⟨i 0, i 1, eq_ix2 i⟩
  rw [layer_apply, val_main_v29_apply, val_main_v26_apply, sum_halves]
  refine congrArg₂ (· + ·) (congrArg₂ (· + ·) (Finset.sum_congr rfl fun k _ => ?_) (Finset.sum_congr rfl fun k _ => ?_)) ?_
  · have el : lidx_main_v26 (ix2 p q) (lo k) = ix2 p (lo k) :=
      funext fun a => Fin.ext (by match a with | ⟨0, _⟩ => rfl | ⟨1, _⟩ => rfl)
    have er : idx_main_v25 (ridx_main_v26 (ix2 p q) (lo k)) = ix2 q (lo k) :=
      funext fun a => Fin.ext (by match a with | ⟨0, _⟩ => rfl | ⟨1, _⟩ => rfl)
    have ed : idx_main_v21 (idx_main_v22 (ix2 p k)) = ix1 p :=
      funext fun a => Fin.ext (by match a with | ⟨0, _⟩ => rfl)
    rw [el, val_main_v25_apply, er]
    unfold val_main_v24
    rw [joined_lo, val_main_v23_apply, val_main_v22_apply, val_main_v21_apply, ed, weight_eq]
    rfl
  · have el : lidx_main_v26 (ix2 p q) (hi k) = ix2 p (hi k) :=
      funext fun a => Fin.ext (by match a with | ⟨0, _⟩ => rfl | ⟨1, _⟩ => rfl)
    have er : idx_main_v25 (ridx_main_v26 (ix2 p q) (hi k)) = ix2 q (hi k) :=
      funext fun a => Fin.ext (by match a with | ⟨0, _⟩ => rfl | ⟨1, _⟩ => rfl)
    rw [el, val_main_v25_apply, er]
    unfold val_main_v24
    rw [joined_hi]
  · have eb : idx_main_v27 (idx_main_v28 (ix2 p q)) = ix1 q :=
      funext fun a => Fin.ext (by match a with | ⟨0, _⟩ => rfl)
    rw [val_main_v28_apply, val_main_v27_apply, eb]

end Cert.ReferenceIdeal.Layer

end
-- ==== Proof.lean ====
/-
  The certificate of one graph layer: mean aggregation over in-neighbours, then a linear map.

  Both programs take node features `x` (100000 × 128), 1.6 million edges (source and destination node of each),
  a weight matrix `W` (128 × 256) and a bias `b` (128), and both first compute, by the same array operations, the
  neighbour sums `agg i = Σ_{edges j → i} x j` and the in-degrees `deg i`.  From there the reference scales row `i`
  of `agg` by `w (deg i)` (`1 / max d 1` where `d > 0`, else `0`), joins it with row `i` of `x` into a row of 256
  entries, multiplies by the transpose of `W` in one product and adds `b`; the kernel does the scaling, the two
  half-width products against the two transposed halves of `W`, and the additions, block by block of 2000 nodes.

  Over the extended reals the two results are the same array: a change of float format is the identity, a product
  accumulated from zero is the plain sum over the contracted coordinate, and the reference's sum over 256 columns
  is the sum over the first 128 plus the sum over the last 128 — a regrouping of a finite sum in a commutative
  monoid, which needs no entry to be finite.  So the precondition is never opened for the value.

    • Proof/MeanAggLinear.lean — the layer as one function of (x, agg, deg, W, b), and the split of the sum;
    • Proof/TileBody.lean, Proof/BlockReads.lean, Proof/RegionEntry.lean, Proof/KernelLayer.lean — the kernel's
      result array is the layer of the arguments' neighbour sums and in-degrees;
    • Proof/RefLayer.lean — the reference's result is the layer of its own neighbour sums and in-degrees;
    • here — the two programs' neighbour sums and in-degrees are the same terms, and the five claims.
-/
import proofs.«177238_j15152644620657_1_alg».proof.Defs
import proofs.«177238_j15152644620657_1_alg».proof.Proof.Gen.Kernel
import proofs.«177238_j15152644620657_1_alg».proof.Proof.Gen.Kernel.Skeleton
import proofs.«177238_j15152644620657_1_alg».proof.Proof.Gen.Kernel.Launch
import proofs.«177238_j15152644620657_1_alg».proof.Proof.Gen.Kernel.Points
import proofs.«177238_j15152644620657_1_alg».proof.Proof.Gen.Kernel.Frame
import proofs.«177238_j15152644620657_1_alg».proof.Proof.Gen.KernelIdeal
import proofs.«177238_j15152644620657_1_alg».proof.Proof.Gen.KernelIdeal.Skeleton
import proofs.«177238_j15152644620657_1_alg».proof.Proof.Gen.KernelIdeal.Launch
import proofs.«177238_j15152644620657_1_alg».proof.Proof.Gen.KernelIdeal.Points
import proofs.«177238_j15152644620657_1_alg».proof.Proof.Gen.KernelIdeal.Frame
import proofs.«177238_j15152644620657_1_alg».proof.Proof.Gen.ReferenceIdeal
import proofs.«177238_j15152644620657_1_alg».proof.Proof.Gen.Pre_finite_inputs
import proofs.«177238_j15152644620657_1_alg».proof.Proof.Gen.KernelIdeal.Value
import proofs.«177238_j15152644620657_1_alg».proof.Proof.RefRun
import proofs.«177238_j15152644620657_1_alg».proof.Proof.RefRead
import proofs.«177238_j15152644620657_1_alg».proof.Proof.KernelLayer
import proofs.«177238_j15152644620657_1_alg».proof.Proof.RefLayer
import Idealize.ShloMosaic.Adequacy
import Idealize.ShloMosaic.Init

noncomputable section

namespace Cert.Proof

open Idealize.ShloMosaic Idealize.SL.Sem

/-! ## The shared first stage -/

section SharedStage
variable {F : FTy → Type} [FloatOps F]

/-- The reference's neighbour sums are the kernel's: the same gather of source rows and the same accumulating
    scatter into destination rows, of the same arguments. -/
theorem nbrSum_same (x0 : (⟨Cert.KernelIdeal.S100000x128, .f32⟩ : BufTy).Contents (Elt F))
    (x1 x2 : (⟨Cert.KernelIdeal.S1600000, .i32⟩ : BufTy).Contents (Elt F)) :
    Cert.ReferenceIdeal.ReadP.val_main_v9 (F := F) x0 x1 x2 = Cert.KernelIdeal.Entry.nbrSum (F := F) x0 x1 x2 := rfl

/-- The reference's in-degrees are the kernel's: the same accumulating scatter of ones into destination entries. -/
theorem inDeg_same (x2 : (⟨Cert.KernelIdeal.S1600000, .i32⟩ : BufTy).Contents (Elt F)) :
    Cert.ReferenceIdeal.ReadP.val_main_v13 (F := F) x2 = Cert.KernelIdeal.Entry.inDeg (F := F) x2 := rfl

end SharedStage

/-! ## The claims -/

/-- The kernel as printed runs to the end and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- So does the reference: its run, with the result forgotten. -/
theorem frame_ri : Cert.frame_ReferenceIdeal := fun m ρ _ =>
  (θ_run Cert.ReferenceIdeal.defs _ _).mono (fun _ h c => (h c).2) (Cert.ReferenceIdeal.ValueP.run (F := Ideal) m ρ)

/-- Nothing was rewritten on the way to the extended reals. -/
theorem preserves : Cert.preserves_Kernel_KernelIdeal := trivial

/-- From arguments that agree, the kernel's result array and the reference's are both the layer of those
    arguments, of their neighbour sums and of their in-degrees. -/
theorem algebraic : Cert.algebraic_KernelIdeal_ReferenceIdeal := by
  intro m ρ m' ρ' _ hagree
  refine ⟨fun c => Cert.KernelIdeal.Layer.out m c, Cert.KernelIdeal.Layer.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v29_eq, Cert.ReferenceIdeal.Layer.result_eq, nbrSum_same, inDeg_same,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
